-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x64 : Shape := ⟨2, ![800000, 64]⟩
abbrev S1x64 : Shape := ⟨2, ![1, 64]⟩
abbrev S50000 : Shape := ⟨1, ![50000]⟩
abbrev S128x128 : Shape := ⟨2, ![128, 128]⟩
abbrev S128 : Shape := ⟨1, ![128]⟩
abbrev S_ : Shape := ⟨0, ![]⟩
abbrev S1x800000 : Shape := ⟨2, ![1, 800000]⟩
abbrev S800000 : Shape := ⟨1, ![800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S1x64 : S_.BroadcastsInDim S1x64 (![] : Fin 0 → Fin S1x64.rank)
  reducesTo_S1x64_S_d0_1 : S1x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_arg1 : IVec S2x800000 32) (main_v33 : IVec S_ 1) : IVec S_ 1 :=
  let main_v34 : IVec S1x800000 32 := (extractStridedSlice S1x800000 ![0, 0] · slices_S2x800000_S1x800000_0_0) main_arg1
  let main_v35 : IVec S800000 32 := shapeCast S800000 main_v34 shapeCasts_S1x800000_S800000
  let main_c_12 : IVec S_ 32 := constantI S_ 32 4294917296#32
  let main_v36 : IVec S800000 32 := broadcastInDim S800000 ![] bcast_S_S800000 main_c_12
  let main_v37 : IVec S800000 1 := cmpi .sge main_v35 main_v36
  let main_v38 : IVec S1x800000 32 := (extractStridedSlice S1x800000 ![0, 0] · slices_S2x800000_S1x800000_0_0) main_arg1
  let main_v39 : IVec S800000 32 := shapeCast S800000 main_v38 shapeCasts_S1x800000_S800000
  let main_c_13 : IVec S_ 32 := constantI S_ 32 50000#32
  let main_v40 : IVec S800000 32 := broadcastInDim S800000 ![] bcast_S_S800000 main_c_13
  let main_v41 : IVec S800000 1 := cmpi .slt main_v39 main_v40
  let main_v42 : IVec S800000 1 := andi main_v37 main_v41
  let main_c_14 : IVec S_ 1 := constantI S_ 1 1#1
  let main_v43 : IVec S_ 1 := (fun x v => Host.reduce IntOp.andi x v reducesTo_S800000_S_d0 h_S_) main_v42 main_c_14
  let main_v44 : IVec S_ 1 := andi main_v33 main_v43
  main_v44

def fn_part1 {F : FTy → Type} [FloatOps F] (main_arg1 : IVec S2x800000 32) (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_v33

def fn {F : FTy → Type} [FloatOps F] (main_arg0 : FVec F S50000x64 .f32) (main_arg1 : IVec S2x800000 32) (main_arg2 : FVec F S800000x64 .f32) (main_arg3 : FVec F S1x64 .f32) (main_arg4 : IVec S50000 32) (main_arg5 : FVec F S128x128 .f32) (main_arg6 : FVec F S128 .f32) (main_arg7 : FVec F S128x128 .f32) (main_arg8 : FVec F S128 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg6 main_arg7 main_arg8 main_v13 main_v16
-- ==== Kernel.lean ====
abbrev S50000x64 : Shape := ⟨2, ![50000, 64]⟩
abbrev S2x800000 : Shape := ⟨2, ![2, 800000]⟩
abbrev S800000x64 : Shape := ⟨2, ![800000, 64]⟩
abbrev S1x64 : Shape := ⟨2, ![1, 64]⟩
abbrev S50000 : Shape := ⟨1, ![50000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S1x128 : Shape := ⟨2, ![1, 128]⟩
abbrev S800000x128 : Shape := ⟨2, ![800000, 128]⟩
abbrev S10000x64 : Shape := ⟨2, ![10000, 64]⟩
abbrev S10000x128 : Shape := ⟨2, ![10000, 128]⟩
abbrev S64x128 : Shape := ⟨2, ![64, 128]⟩

abbrev nBuf : Space → Nat
  | .hbm => 37
  | .vmem => 10
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x64, .f32⟩
  | .hbm, ⟨3, _⟩ => ⟨S1x64, .f32⟩
  | .hbm, ⟨4, _⟩ => ⟨S50000, .i32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S1, .i32⟩
  | .hbm, ⟨20, _⟩ => ⟨S_, .i32⟩
  | .hbm, ⟨21, _⟩ => ⟨S800000x1, .i32⟩
  | .hbm, ⟨22, _⟩ => ⟨S800000x1, .i1⟩
  | .hbm, ⟨23, _⟩ => ⟨S1x1, .i32⟩
  | .hbm, ⟨24, _⟩ => ⟨S800000x1, .i32⟩
  | .hbm, ⟨25, _⟩ => ⟨S800000x1, .i1⟩
  | .hbm, ⟨26, _⟩ => ⟨S800000x1, .i1⟩
  | .hbm, ⟨27, _⟩ => ⟨S_, .i1⟩
  | .hbm, ⟨28, _⟩ => ⟨S800000, .i1⟩
  | .hbm, ⟨29, _⟩ => ⟨S800000x64, .f32⟩
  | .hbm, ⟨30, _⟩ => ⟨S800000x64, .i1⟩
  | .hbm, ⟨31, _⟩ => ⟨S_, .f32⟩
  | .hbm, ⟨32, _⟩ => ⟨S800000x64, .f32⟩
  | .hbm, ⟨33, _⟩ => ⟨S800000x64, .f32⟩
  | .hbm, ⟨34, _⟩ => ⟨S1x128, .f32⟩
  | .hbm, ⟨35, _⟩ => ⟨S1x128, .f32⟩
  | .hbm, ⟨36, _⟩ => ⟨S800000x128, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  shapeCasts_S128_S1x128 : S128.ShapeCasts S1x128
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S128x128_S64x128_0_0 : ∀ a, (![0, 0] : Fin 2 → Nat) a + S64x128.size a ≤ S128x128.size a
  h_S64x128 : 0 < S64x128.numel
  inb_S128x128_S64x128_64_0 : ∀ a, (![64, 0] : Fin 2 → Nat) a + S64x128.size a ≤ S128x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x128_S128x128_0_0 : ∀ a, (![0, 0] : Fin 2 → Nat) a + S128x128.size a ≤ S128x128.size a
  h_S128x128 : 0 < S128x128.numel
  inb_S10000x128_S10000x128_0_0 : ∀ a, (![0, 0] : Fin 2 → Nat) a + S10000x128.size a ≤ S10000x128.size a
  h_S10000x128 : 0 < S10000x128.numel
  gather_S50000x64_S800000x1_S800000x64_1_0_n_n_0_1_164_wf : GatherDims.WF S50000x64 S800000x1 S800000x64 [1] [0] [] [0] [] 1 ![1, 64]
  dot_S10000x64_S64x128_S10000x128_1_0_0_1_n_n_wf : DotDims.WF S10000x64 S64x128 S10000x128 [1] [0] [0] [1] [] []
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S800000x64.size a
  hwx0_0 : ∀ i : grid0.Coords, EltTy.bits .f32 = 32 ∨ (Rect.block (s := S800000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S800000x64.size a
  hwx0_1 : ∀ i : grid0.Coords, EltTy.bits .f32 = 32 ∨ (Rect.block (s := S800000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S800000x128.size a
  hwx0_6 : ∀ i : grid0.Coords, EltTy.bits .f32 = 32 ∨ (Rect.block (s := S800000x128) S10000x128.size (cc0_transform_6 i) (hinb0_6 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v2) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x64 : Shape := ⟨2, ![800000, 64]⟩
abbrev S1x64 : Shape := ⟨2, ![1, 64]⟩
abbrev S50000 : Shape := ⟨1, ![50000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 32
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x64, .f32⟩
  | .hbm, ⟨3, _⟩ => ⟨S1x64, .f32⟩
  | .hbm, ⟨4, _⟩ => ⟨S50000, .i32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S800000x128, .f32⟩
  | .hbm, ⟨21, _⟩ => ⟨S800000x128, .f32⟩
  | .hbm, ⟨22, _⟩ => ⟨S1x128, .f32⟩
  | .hbm, ⟨23, _⟩ => ⟨S800000x128, .f32⟩
  | .hbm, ⟨24, _⟩ => ⟨S800000x128, .f32⟩
  | .hbm, ⟨25, _⟩ => ⟨S_, .f32⟩
  | .hbm, ⟨26, _⟩ => ⟨S800000x128, .f32⟩
  | .hbm, ⟨27, _⟩ => ⟨S800000x128, .f32⟩
  | .hbm, ⟨28, _⟩ => ⟨S800000x128, .f32⟩
  | .hbm, ⟨29, _⟩ => ⟨S1x128, .f32⟩
  | .hbm, ⟨30, _⟩ => ⟨S800000x128, .f32⟩
  | .hbm, ⟨31, _⟩ => ⟨S800000x128, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call0_cst : Ref sig .tc := ⟨.hbm, 25, rfl⟩
abbrev main_call0_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  gather_S50000x64_S800000x1_S800000x64_1_0_n_n_0_1_164_wf : GatherDims.WF S50000x64 S800000x1 S800000x64 [1] [0] [] [0] [] 1 ![1, 64]
  dot_S800000x128_S128x128_S800000x128_1_0_0_1_n_n_wf : DotDims.WF S800000x128 S128x128 S800000x128 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf

class Facts : Prop extends Facts₀ where

variable [Facts]
-- ==== Proof.PreDecode.lean ====
/-
  What the precondition says about the row indices.

  The precondition's last conjunct is `jnp.all((edge_index[0] >= -50000) & (edge_index[0] < 50000))`: every entry of the
  first row of the edge-index table is a valid row index of the 50000-row node table, negative ones counting from the
  end. Here that conjunct is read back from the printed predicate: for every edge `e` the two signed comparisons hold
  of the word `rows a1 e`.
-/
import proofs.«427473_j63170378990109_4_alg».proof.Proof.Gen.Pre_finite_inputs
import Idealize.ShloMosaic.Lib.ReduceAll
import Idealize.ShloMosaic.Lib.ValueIdx

open Idealize.ShloMosaic

namespace Cert.Pre_finite_inputs.Decode

open Cert.Pre_finite_inputs Cert.Pre_finite_inputs.Facts

variable {F : FTy → Type} [FloatOps F]

/-- The first row of the edge-index table, as a vector of 800000 words. -/
def rows (a1 : IVec S2x800000 32) : IVec S800000 32 :=
  shapeCast S800000 (extractStridedSlice S1x800000 ![0, 0] a1 slices_S2x800000_S1x800000_0_0) shapeCasts_S1x800000_S800000

/-- Under the precondition every row index is valid: `-50000 ≤ rows a1 e` and `rows a1 e < 50000`, as signed words. -/
theorem rows_valid (a0 : FVec F S50000x64 .f32) (a1 : IVec S2x800000 32) (a2 : FVec F S800000x64 .f32)
    (a3 : FVec F S1x64 .f32) (a4 : IVec S50000 32) (a5 : FVec F S128x128 .f32) (a6 : FVec F S128 .f32)
    (a7 : FVec F S128x128 .f32) (a8 : FVec F S128 .f32)
    (h : fn (F := F) a0 a1 a2 a3 a4 a5 a6 a7 a8 = fun _ => 1#1) (e : S800000.Idx) :
    IntOp.cmpi .sge (rows a1 e) 4294917296#32 = 1#1 ∧ IntOp.cmpi .slt (rows a1 e) 50000#32 = 1#1 := by
  have h0 := congrFun h ValueIdx.ix0
  dsimp only [fn, fn_part1, fn_part2] at h0
  have h1 := (IntOp.andi_eq_one.1 h0).2
  haveI : Subsingleton S_.Idx := ⟨fun a b => funext fun d => d.elim0⟩
  have h2 := Host.reduce_andi_all _ _ _ _ _ h1 e
  exact IntOp.andi_eq_one.1 h2

end Cert.Pre_finite_inputs.Decode
-- ==== Proof.RowIndex.lean ====
/-
  Row indices of a 50000-row table, as NumPy reads them.

  Both programs first shift a negative row index by the table's height (`r < 0 ↦ r + 50000`) and then read the
  table there. One of them then also asks whether the shifted index lies in `[0, 49999]`, and answers a fill value
  where it does not. This file shows that for every VALID index `-50000 ≤ r < 50000` the shifted index does lie in
  `[0, 49999]`, so that the question is always answered "yes" and the fill value is never used:

  * `shifted_bounds`  — one 32-bit word: the two signed comparisons of the shifted index both hold;
  * `foldl_andi_one`, `reduce_andi_one` — an `and`-reduction of words that are all 1, from 1, is 1
    (the converse of the library's `Host.reduce_andi_eq_one`);
  * `fill_mask_one`   — the whole [800000 × 64] mask is the constant 1;
  * `select_of_mask_one` — selecting by a mask that is constantly 1 returns the first branch.
-/
import Idealize.ShloMosaic.Lib.ReduceAll
import Idealize.ShloMosaic.Lib.Affine
import Idealize.ShloMosaic.PureOps

open Idealize.ShloMosaic

namespace Cert.RowIndex

abbrev S_ : Shape := ⟨0, ![]⟩
abbrev S1 : Shape := ⟨1, ![1]⟩
abbrev S1x1 : Shape := ⟨2, ![1, 1]⟩
abbrev S800000 : Shape := ⟨1, ![800000]⟩
abbrev S800000x1 : Shape := ⟨2, ![800000, 1]⟩
abbrev S800000x64 : Shape := ⟨2, ![800000, 64]⟩

/-- The shifted index: a negative word moved up by the table's height, any other word unchanged. -/
def shifted (r : BitVec 32) : BitVec 32 :=
  Scalar.select (IntOp.cmpi .slt r 0#32) (IntOp.addi r 50000#32) r

/-- For `-50000 ≤ r < 50000` (signed) the shifted index is in `[0, 49999]`: a negative `r` becomes `r + 50000`, which
    does not wrap around at 32 bits, and a non-negative one is already below 50000. -/
theorem shifted_bounds (r : BitVec 32)
    (hlo : IntOp.cmpi .sge r 4294917296#32 = 1#1) (hhi : IntOp.cmpi .slt r 50000#32 = 1#1) :
    IntOp.andi (IntOp.cmpi .sge (shifted r) 0#32) (IntOp.cmpi .sle (shifted r) 49999#32) = 1#1 := by
  have h1 : (4294917296#32 : BitVec 32).toInt = -50000 := by decide
  have h2 : (50000#32 : BitVec 32).toInt = 50000 := by decide
  have h3 : (0#32 : BitVec 32).toInt = 0 := by decide
  have h4 : (49999#32 : BitVec 32).toInt = 49999 := by decide
  rw [IntOp.cmpi_sge, h1] at hlo
  rw [IntOp.cmpi_slt, h2] at hhi
  rw [IntOp.andi_eq_one, IntOp.cmpi_sge, IntOp.cmpi_sle, h3, h4]
  unfold shifted Scalar.select
  by_cases hneg : r.toInt < 0
  · have hc : IntOp.cmpi .slt r 0#32 = (1 : BitVec 1) := IntOp.cmpi_slt.2 (by rw [h3]; exact hneg)
    rw [if_pos hc]
    have hadd : (IntOp.addi r 50000#32).toInt = r.toInt + 50000 := by
      unfold IntOp.addi
      rw [BitVec.toInt_add, h2]
      exact Int.bmod_eq_of_le_mul_two (by omega) (by omega)
    rw [hadd]; omega
  · have hc : ¬ IntOp.cmpi .slt r 0#32 = (1 : BitVec 1) :=
      fun h => hneg (by have := IntOp.cmpi_slt.1 h; rwa [h3] at this)
    rw [if_neg hc]; omega

/-- A left fold by `and` from 1 over words that are all 1 is 1. -/
theorem foldl_andi_one {ι : Type} (f : ι → BitVec 1) :
    ∀ (l : List ι) (init : BitVec 1), init = 1#1 → (∀ n ∈ l, f n = 1#1) →
      l.foldl (fun r n => IntOp.andi r (f n)) init = 1#1
  | [], _, hi, _ => hi
  | a :: l, init, hi, hf => by
    rw [List.foldl_cons]
    exact foldl_andi_one f l _ (IntOp.andi_eq_one.2 ⟨hi, hf a List.mem_cons_self⟩)
      (fun n hn => hf n (List.mem_cons_of_mem _ hn))

/-- An `and`-reduction, from the constant 1, of a mask that is 1 everywhere is 1 everywhere. -/
theorem reduce_andi_one {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_one x _ _ (hinit _) (fun i _ => hx i)

/-- The shifted indices of a whole vector of row indices. -/
def shiftedVec (hb : S_.BroadcastsInDim S800000 (![] : Fin 0 → Fin S800000.rank)) (row : IVec S800000 32) : IVec S800000 32 :=
  select (cmpi .slt row (broadcastInDim S800000 ![] hb (constantI S_ 32 0#32)))
    (addi row (broadcastInDim S800000 ![] hb (constantI S_ 32 50000#32))) row

theorem shiftedVec_apply (hb : S_.BroadcastsInDim S800000 (![] : Fin 0 → Fin S800000.rank)) (row : IVec S800000 32)
    (e : S800000.Idx) : shiftedVec hb row e = shifted (row e) := rfl

/-- The mask "the shifted index is in `[0, 49999]`", computed on the indices laid out as an [800000 × 1] column,
    `and`-reduced along the column's one entry and repeated along 64 columns, is 1 everywhere when every row index is
    valid. -/
theorem fill_mask_one
    (hb : S_.BroadcastsInDim S800000 (![] : Fin 0 → Fin S800000.rank))
    (hcol : S800000.BroadcastsInDim S800000x1 (![0] : Fin 1 → Fin S800000x1.rank))
    (hz : S_.BroadcastsInDim S800000x1 (![] : Fin 0 → Fin S800000x1.rank))
    (h11 : S1.BroadcastsInDim S1x1 (![1] : Fin 1 → Fin S1x1.rank))
    (htop : S1x1.BroadcastsInDim S800000x1 (![0, 1] : Fin 2 → Fin S800000x1.rank))
    (hred : S800000x1.ReducesTo [1] S800000) (hu : 0 < S_.numel)
    (hrep : S800000.BroadcastsInDim S800000x64 (![0] : Fin 1 → Fin S800000x64.rank))
    (row : IVec S800000 32)
    (hrow : ∀ e, IntOp.cmpi .sge (row e) 4294917296#32 = 1#1 ∧ IntOp.cmpi .slt (row e) 50000#32 = 1#1) :
    broadcastInDim S800000x64 ![0] hrep
      (Host.reduce IntOp.andi
        (andi
          (cmpi .sge (broadcastInDim S800000x1 ![0] hcol (shiftedVec hb row))
            (broadcastInDim S800000x1 ![] hz (constantI S_ 32 0#32)))
          (cmpi .sle (broadcastInDim S800000x1 ![0] hcol (shiftedVec hb row))
            (broadcastInDim S800000x1 ![0, 1] htop (broadcastInDim S1x1 ![1] h11 (constantI S1 32 49999#32)))))
        (constantI S_ 1 1#1) hred hu)
    = fun _ => 1#1 := by
  funext j
  unfold broadcastInDim
  refine reduce_andi_one _ _ hred hu (fun _ => rfl) (fun i => ?_) _
  exact shifted_bounds _ (hrow _).1 (hrow _).2

/-- A selection by a mask that is 1 everywhere is its first branch. -/
theorem select_of_mask_one {α : Type} {s : Shape} (c : IVec s 1) (a b : s.Idx → α) (hc : c = fun _ => 1#1) :
    select c a b = a := by
  subst hc
  funext i
  show (if (1#1 : BitVec 1) = 1 then a i else b i) = a i
  exact if_pos rfl

end Cert.RowIndex
-- ==== Proof.KernelRegion.lean ====
/-
  The arrays the pallas_call is given, for any reading of the float values.

  Before the call the program takes the first row of the edge-index table, shifts its negative entries by the node
  table's height, gathers the node table's rows there — answering a fill value where the shifted index is outside
  `[0, 49999]` — and lays the two bias vectors out as [1 × 128] rows. Where every row index is valid the fill is
  never used, and the rows the call is given are the plain gather at the shifted indices (`region_rows_eq`).
-/
import proofs.«427473_j63170378990109_4_alg».proof.Proof.Gen.KernelIdeal.Frame
import proofs.«427473_j63170378990109_4_alg».proof.Proof.RowIndex
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem

namespace Cert.KernelIdeal.Region

open Cert.KernelIdeal Cert.KernelIdeal.Gen Idealize.ShloMosaic.ValueIdx

attribute [local irreducible] Host.reduce Host.gather

/-- A transport along an equation of a type with itself is the identity. -/
theorem cast_id {α : Sort _} (h : α = α) (a : α) : cast h a = a := by
  rw [cast_eq]

variable {F : FTy → Type} [FloatOps F]
variable (m : (ℓ : Loc nD τ sig) → Buf (Elt F) ℓ)

/-- The first row of the edge-index table: the row indices, one per edge. -/
def rowsK (c : Dev nD) : IVec S800000 32 :=
  shapeCast S800000 (extractStridedSlice S1x800000 ![0, 0] (m ((c : Thread nD τ).loc main_arg1)) slices_S2x800000_S1x800000_0_0)
    shapeCasts_S1x800000_S800000

/-- The gather's start indices: the shifted row indices as an [800000 × 1] column. -/
def startsK (c : Dev nD) : IVec S800000x1 32 :=
  broadcastInDim S800000x1 ![0] bcast_S800000_S800000x1_0 (Cert.RowIndex.shiftedVec bcast_S_S800000 (rowsK m c))

set_option maxHeartbeats 2000000 in
/-- Where every row index is valid, the rows the call is given are the plain gather at the shifted indices: the
    program's range test on the shifted index always succeeds, so its fill value is never selected. -/
theorem region_rows_eq (c : Dev nD)
    (hrow : ∀ e, IntOp.cmpi .sge (rowsK m c e) 4294917296#32 = 1#1 ∧ IntOp.cmpi .slt (rowsK m c e) 50000#32 = 1#1) :
    (V m c main_v2 : S800000x64.Idx → F .f32)
      = Host.gather gather_S50000x64_S800000x1_S800000x64_1_0_n_n_0_1_164 (m ((c : Thread nD τ).loc main_arg0)) (startsK m c) := by
  dsimp only [V]
  simp only [hostOps0, hostOps0_1, hostOps0_2, List.flatten_cons, List.flatten_nil, List.append_nil, List.cons_append,
    List.nil_append]
  after_results_simp
  simp only [StableHlo.TRef.ofBuf, StableHlo.TRef.toBuf, cast_id]
  refine (Cert.RowIndex.select_of_mask_one _ _ _ ?_).trans ?_
  · exact Cert.RowIndex.fill_mask_one bcast_S_S800000 bcast_S800000_S800000x1_0 bcast_S_S800000x1 bcast_S1_S1x1_1
      bcast_S1x1_S800000x1_0_1 reducesTo_S800000x1_S800000_d1 h_S_ bcast_S800000_S800000x64_0 (rowsK m c) hrow
  · rfl

/-- The first bias row the call is given is the first bias vector laid out as a [1 × 128] row. -/
theorem region_bias1 (c : Dev nD) (k : Fin 128) :
    (V m c main_v3 : S1x128.Idx → F .f32) (ix2 0 k) = (m ((c : Thread nD τ).loc main_arg6) : S128.Idx → F .f32) (ix1 k) := by
  have e : (V m c main_v3 : S1x128.Idx → F .f32)
      = shapeCast S1x128 (m ((c : Thread nD τ).loc main_arg6)) shapeCasts_S128_S1x128 := by
    dsimp only [V]
    simp only [hostOps0, hostOps0_1, hostOps0_2, List.flatten_cons, List.flatten_nil, List.append_nil,
      List.cons_append, List.nil_append]
    after_results_simp
    rfl
  rw [e]
  exact shapeCast_apply _ shapeCasts_S128_S1x128 (ix2 0 k) (ix1 k)
    (by rw [Shape.rowMajor_val_one, Shape.rowMajor_val_two]; show k.val = 0 * 128 + k.val; omega)

/-- The second bias row the call is given is the second bias vector laid out as a [1 × 128] row. -/
theorem region_bias2 (c : Dev nD) (k : Fin 128) :
    (V m c main_v4 : S1x128.Idx → F .f32) (ix2 0 k) = (m ((c : Thread nD τ).loc main_arg8) : S128.Idx → F .f32) (ix1 k) := by
  have e : (V m c main_v4 : S1x128.Idx → F .f32)
      = shapeCast S1x128 (m ((c : Thread nD τ).loc main_arg8)) shapeCasts_S128_S1x128 := by
    dsimp only [V]
    simp only [hostOps0, hostOps0_1, hostOps0_2, List.flatten_cons, List.flatten_nil, List.append_nil,
      List.cons_append, List.nil_append]
    after_results_simp
    rfl
  rw [e]
  exact shapeCast_apply _ shapeCasts_S128_S1x128 (ix2 0 k) (ix1 k)
    (by rw [Shape.rowMajor_val_one, Shape.rowMajor_val_two]; show k.val = 0 * 128 + k.val; omega)

end Cert.KernelIdeal.Region

end
-- ==== Proof.EdgeMlp.lean ====
/-
  The two-layer edge network, as one function of its inputs over the extended reals.

  For edge `e` the input row is the 64 gathered node features `g e` followed by the 64 edge attributes `ea e`. With
  weights `W1`, `W2` (rows: input features, columns: output features) and biases `b1`, `b2`,

      hidden e k = max (∑ₐ g e a · W1 a k  +  ∑ₐ ea e a · W1 (64 + a) k  +  b1 k) 0
      out e j    = ∑ₖ hidden e k · W2 k j  +  b2 j.

  `hidden` sums the two halves of the row separately. `hiddenJoined` sums the joined 128-wide row at once; the two
  agree because a sum over 128 = 64 + 64 columns splits into its two halves, which needs only that addition of
  extended reals is commutative and associative (no finiteness).
-/
import Idealize.ShloMosaic.PureOps.Ideal
import Mathlib.Algebra.BigOperators.Fin

noncomputable section

open Idealize.ShloMosaic

namespace Cert.EdgeMlp

/-- Column `a` of the first half of a 128-wide row. -/
def lo (a : Fin 64) : Fin 128 := ⟨a.val, by omega⟩
/-- Column `a` of the second half: column `64 + a` of the row. -/
def hi (a : Fin 64) : Fin 128 := ⟨64 + a.val, by omega⟩

/-- The zero the activation is cut off at, as the word both programs carry. -/
def zero : EReal := Ideal.ofBits .f32 0x00000000#32

/-- The hidden layer, the two halves of the input row summed separately. -/
def hidden (g ea : Fin 800000 → Fin 64 → EReal) (W1 : Fin 128 → Fin 128 → EReal) (b1 : Fin 128 → EReal)
    (e : Fin 800000) (k : Fin 128) : EReal :=
  max (((∑ a : Fin 64, g e a * W1 (lo a) k) + ∑ a : Fin 64, ea e a * W1 (hi a) k) + b1 k) zero

/-- The network's output for edge `e`, feature `j`. -/
def out (g ea : Fin 800000 → Fin 64 → EReal) (W1 : Fin 128 → Fin 128 → EReal) (b1 : Fin 128 → EReal)
    (W2 : Fin 128 → Fin 128 → EReal) (b2 : Fin 128 → EReal) (e : Fin 800000) (j : Fin 128) : EReal :=
  (∑ k : Fin 128, hidden g ea W1 b1 e k * W2 k j) + b2 j

/-- The hidden layer from the joined row `f e = g e ++ ea e`. -/
def hiddenJoined (W1 : Fin 128 → Fin 128 → EReal) (b1 : Fin 128 → EReal) (f : Fin 800000 → Fin 128 → EReal)
    (e : Fin 800000) (k : Fin 128) : EReal :=
  max ((∑ a : Fin 128, f e a * W1 a k) + b1 k) zero

/-- A sum over 128 columns is the sum over the first 64 plus the sum over the last 64. -/
theorem sum_halves (f : Fin 128 → EReal) : ∑ a : Fin 128, f a = (∑ a : Fin 64, f (lo a)) + ∑ a : Fin 64, f (hi a) :=
  Fin.sum_univ_add (a := 64) (b := 64) f

/-- Summing the joined row at once gives the same hidden layer as summing its halves. -/
theorem hiddenJoined_eq (g ea : Fin 800000 → Fin 64 → EReal) (W1 : Fin 128 → Fin 128 → EReal) (b1 : Fin 128 → EReal)
    (f : Fin 800000 → Fin 128 → EReal) (hl : ∀ e a, f e (lo a) = g e a) (hr : ∀ e a, f e (hi a) = ea e a)
    (e : Fin 800000) (k : Fin 128) : hiddenJoined W1 b1 f e k = hidden g ea W1 b1 e k := by
  unfold hiddenJoined hidden
  rw [sum_halves]
  simp only [hl, hr]

end Cert.EdgeMlp

end
-- ==== Proof.KernelBody.lean ====
/-
  What the kernel body computes for one block of 10000 edges, entry by entry.

  From the block's loaded values — the gathered rows `v0` and edge attributes `v2` ([10000 × 64]), the two halves
  `v3`, `v4` of the first weight matrix ([64 × 128] each), the bias rows `v8`, `v16` ([1 × 128]) and the second weight
  matrix `v14` — the stored value at row `p`, column `q` is

      ∑ₖ max (∑ₐ v0 p a · v3 a k + ∑ₐ v2 p a · v4 a k + v8 0 k) 0 · v14 k q + v16 0 q.

  Each matrix product into a zero accumulator is, over the extended reals, the plain sum over the contracted axis
  (`mmIn_apply`, `mmOut_apply`); a bias row broadcast down the block reads the row at the column (`biasRow_apply`).
-/
import proofs.«427473_j63170378990109_4_alg».proof.Proof.Gen.KernelIdeal.Skeleton
import proofs.«427473_j63170378990109_4_alg».proof.Proof.EdgeMlp
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

theorem lhs_mmIn_0 (i : S10000x128.Idx) (q : dot_S10000x64_S64x128_S10000x128_1_0_0_1_n_n.contr.Idx) :
    (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
theorem lhs_mmIn_1 (i : S10000x128.Idx) (q : dot_S10000x64_S64x128_S10000x128_1_0_0_1_n_n.contr.Idx) :
    (dot_S10000x64_S64x128_S10000x128_1_0_0_1_n_n.lhsIdx i q 1).val = (q ⟨0, by decide⟩).val :=
  dot_S10000x64_S64x128_S10000x128_1_0_0_1_n_n.lhsIdx_val_of_single rfl i q
theorem rhs_mmIn_0 (i : S10000x128.Idx) (q : dot_S10000x64_S64x128_S10000x128_1_0_0_1_n_n.contr.Idx) :
    (dot_S10000x64_S64x128_S10000x128_1_0_0_1_n_n.rhsIdx i q 0).val = (q ⟨0, by decide⟩).val :=
  dot_S10000x64_S64x128_S10000x128_1_0_0_1_n_n.rhsIdx_val_of_single rfl i q
theorem rhs_mmIn_1 (i : S10000x128.Idx) (q : dot_S10000x64_S64x128_S10000x128_1_0_0_1_n_n.contr.Idx) :
    (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

theorem lhs_mmOut_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_mmOut_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_mmOut_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_mmOut_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A [10000 × 64] by [64 × 128] product into zero, at (p, q): the sum over the 64 contracted columns. -/
theorem mmIn_apply (l : FVec Ideal S10000x64 .f32) (r : FVec Ideal S64x128 .f32) (p : Fin 10000) (q : Fin 128) :
    matmul dot_S10000x64_S64x128_S10000x128_1_0_0_1_n_n (some .fp32) l r (constant S10000x128 .f32 0x00000000#32) (ix2 p q)
      = ∑ k : Fin 64, l (ix2 p k) * r (ix2 k q) := by
  simp only [matmul]
  rw [Ideal.matmul_constant_zero_apply, ← Equiv.sum_comp (contrEquiv1 dot_S10000x64_S64x128_S10000x128_1_0_0_1_n_n 64 rfl rfl).symm]
  refine Finset.sum_congr rfl fun k _ => ?_
  have hk := contrEquiv1_symm_val dot_S10000x64_S64x128_S10000x128_1_0_0_1_n_n 64 rfl rfl k
  have el : dot_S10000x64_S64x128_S10000x128_1_0_0_1_n_n.lhsIdx (ix2 p q) ((contrEquiv1 dot_S10000x64_S64x128_S10000x128_1_0_0_1_n_n 64 rfl rfl).symm k) = ix2 p k := funext fun a => Fin.ext (by
    match a with
    | ⟨0, _⟩ => exact lhs_mmIn_0 _ _
    | ⟨1, _⟩ => exact (lhs_mmIn_1 _ _).trans hk)
  have er : dot_S10000x64_S64x128_S10000x128_1_0_0_1_n_n.rhsIdx (ix2 p q) ((contrEquiv1 dot_S10000x64_S64x128_S10000x128_1_0_0_1_n_n 64 rfl rfl).symm k) = ix2 k q := funext fun a => Fin.ext (by
    match a with
    | ⟨0, _⟩ => exact (rhs_mmIn_0 _ _).trans hk
    | ⟨1, _⟩ => exact rhs_mmIn_1 _ _)
  rw [el, er]

/-- A [10000 × 128] by [128 × 128] product into zero, at (p, q): the sum over the 128 contracted columns. -/
theorem mmOut_apply (l : FVec Ideal S10000x128 .f32) (r : FVec Ideal S128x128 .f32) (p : Fin 10000) (q : Fin 128) :
    matmul dot_S10000x128_S128x128_S10000x128_1_0_0_1_n_n (some .fp32) l r (constant S10000x128 .f32 0x00000000#32) (ix2 p q)
      = ∑ k : Fin 128, l (ix2 p k) * r (ix2 k q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_mmOut_0 _ _
    | ⟨1, _⟩ => exact (lhs_mmOut_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_mmOut_0 _ _).trans hk
    | ⟨1, _⟩ => exact rhs_mmOut_1 _ _)
  rw [el, er]

/-- A [1 × 128] row broadcast down 10000 rows reads, at (p, q), the row at column q. -/
theorem biasRow_apply (v : FVec Ideal S1x128 .f32) (h : S1x128.Broadcasts S10000x128) (p : Fin 10000) (q : Fin 128) :
    broadcastTo S10000x128 v h (ix2 p q) = v (ix2 0 q) :=
  broadcastTo_apply v h (ix2 p q) (ix2 0 q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-- The body's stored value at row `p`, column `q` of the block. -/
theorem pay_apply (v0 v2 : Vec Ideal S10000x64 .f32) (v3 v4 : Vec Ideal S64x128 .f32) (v8 : Vec Ideal S1x128 .f32)
    (v14 : Vec Ideal S128x128 .f32) (v16 : Vec Ideal S1x128 .f32) (p : Fin 10000) (q : Fin 128) :
    k0_pay1 (F := Ideal) v0 v2 v3 v4 v8 v14 v16 (ix2 p q)
      = (∑ k : Fin 128, max (((∑ a : Fin 64, v0 (ix2 p a) * v3 (ix2 a k)) + ∑ a : Fin 64, v2 (ix2 p a) * v4 (ix2 a k))
            + v8 (ix2 0 k)) Cert.EdgeMlp.zero * v14 (ix2 k q)) + v16 (ix2 0 q) := by
  unfold k0_pay1
  rw [addf_apply, mmOut_apply, biasRow_apply]
  simp only [shapeCast_self, maximumf_apply, addf_apply, broadcast_apply, mmIn_apply, biasRow_apply]
  rfl

/-- The same as the edge network: when row `p` of the two streamed blocks is edge `e`'s gathered row and attributes, the
    two loaded pieces of the first weight matrix are its first and last 64 rows, and the bias rows and the second
    weight matrix are as named, the stored value at (p, q) is `Cert.EdgeMlp.out … e q`. -/
theorem block_core (v0 v2 : Vec Ideal S10000x64 .f32) (v3 v4 : Vec Ideal S64x128 .f32) (v8 : Vec Ideal S1x128 .f32)
    (v14 : Vec Ideal S128x128 .f32) (v16 : Vec Ideal S1x128 .f32)
    (g ea : Fin 800000 → Fin 64 → EReal) (W1 : Fin 128 → Fin 128 → EReal) (b1 : Fin 128 → EReal)
    (W2 : Fin 128 → Fin 128 → EReal) (b2 : Fin 128 → EReal) (e : Fin 800000) (p : Fin 10000) (q : Fin 128)
    (h0 : ∀ a, v0 (ix2 p a) = g e a) (h2 : ∀ a, v2 (ix2 p a) = ea e a)
    (h3 : ∀ a k, v3 (ix2 a k) = W1 (Cert.EdgeMlp.lo a) k) (h4 : ∀ a k, v4 (ix2 a k) = W1 (Cert.EdgeMlp.hi a) k)
    (h8 : ∀ k, v8 (ix2 0 k) = b1 k) (h14 : ∀ a k, v14 (ix2 a k) = W2 a k) (h16 : ∀ k, v16 (ix2 0 k) = b2 k) :
    k0_pay1 (F := Ideal) v0 v2 v3 v4 v8 v14 v16 (ix2 p q) = Cert.EdgeMlp.out g ea W1 b1 W2 b2 e q := by
  rw [pay_apply]
  simp only [h0, h2, h3, h4, h8, h14, h16]
  rfl

end Cert.KernelIdeal.Body

end
-- ==== Proof.KernelBlocks.lean ====
/-
  Which part of each array a grid point is given, and which part of the result it writes back.

  The grid has 80 points. Point `t` is given rows `10000·t … 10000·t + 9999` of the two streamed [800000 × 64]
  arrays, and the two [128 × 128] matrices and the two [1 × 128] rows whole; it writes back rows
  `10000·t … 10000·t + 9999` of the [800000 × 128] result, and the 80 blocks of rows cover the result.

  Everything here is stated for ARBITRARY arrays of the windows' shapes (`A`, `Y`, `G`): these are facts about the
  index maps alone, whatever the arrays hold.
-/
import proofs.«427473_j63170378990109_4_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable {F : FTy → Type} [FloatOps F]

/-- The printed index maps, decided over the 80 grid points: the two streamed inputs and the output move down one
    block of rows per point; the resident inputs stay at block (0, 0). -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_6.index t (0 : Fin 2) = t.val
    ∧ win0_6.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ t.val < 80 :=
  (by decide +kernel : ∀ t : Fin grid0.N, _)

/-- Window 0's block at point `t`, read off ANY array of its shape, holds rows `10000·t … 10000·t + 9999` of it. -/
theorem blk0_read (A : S800000x64.Idx → F .f32) (t : Fin cfg0.N) (p : Fin 10000) (a : Fin 64) (e : Fin 800000)
    (he : e.val = 10000 * t.val + p.val) :
    (((cfg0.win 0).blk t).view.read (Elt F) A : Vec F S10000x64 .f32) (ix2 p a) = A (ix2 e a) := by
  obtain ⟨i0, i1, -, -, -, -, -, -, -, -, -, -, -, -, -⟩ := idx_facts t
  rw [View.read_apply]
  show A _ = A _
  refine congrArg A ?_
  funext d
  apply Fin.ext
  match d with
  | ⟨0, _⟩ => show win0_0.index t (0 : Fin 2) * 10000 + 1 * p.val = e.val; rw [i0, he]; omega
  | ⟨1, _⟩ => show win0_0.index t (1 : Fin 2) * 64 + 1 * a.val = a.val; rw [i1]; omega

/-- Window 1's block at point `t`, read off ANY array of its shape, holds rows `10000·t … 10000·t + 9999` of it. -/
theorem blk1_read (A : S800000x64.Idx → F .f32) (t : Fin cfg0.N) (p : Fin 10000) (a : Fin 64) (e : Fin 800000)
    (he : e.val = 10000 * t.val + p.val) :
    (((cfg0.win 1).blk t).view.read (Elt F) A : Vec F S10000x64 .f32) (ix2 p a) = A (ix2 e a) := by
  obtain ⟨-, -, i0, i1, -, -, -, -, -, -, -, -, -, -, -⟩ := idx_facts t
  rw [View.read_apply]
  show A _ = A _
  refine congrArg A ?_
  funext d
  apply Fin.ext
  match d with
  | ⟨0, _⟩ => show win0_1.index t (0 : Fin 2) * 10000 + 1 * p.val = e.val; rw [i0, he]; omega
  | ⟨1, _⟩ => show win0_1.index t (1 : Fin 2) * 64 + 1 * a.val = a.val; rw [i1]; omega

/-- Window 2 stages the whole of ANY [128 × 128] array at every point. -/
theorem blk2_read (A : S128x128.Idx → F .f32) (t : Fin cfg0.N) (a k : Fin 128) :
    (((cfg0.win 2).blk t).view.read (Elt F) A : Vec F S128x128 .f32) (ix2 a k) = A (ix2 a k) := by
  obtain ⟨-, -, -, -, -, -, i0, i1, -, -, -, -, -, -, -⟩ := idx_facts t
  rw [View.read_apply]
  show A _ = A _
  refine congrArg A ?_
  funext d
  apply Fin.ext
  match d with
  | ⟨0, _⟩ => show win0_2.index t (0 : Fin 2) * 128 + 1 * a.val = a.val; rw [i0]; omega
  | ⟨1, _⟩ => show win0_2.index t (1 : Fin 2) * 128 + 1 * k.val = k.val; rw [i1]; omega

/-- Window 3 stages the whole of ANY [1 × 128] row at every point. -/
theorem blk3_read (A : S1x128.Idx → F .f32) (t : Fin cfg0.N) (k : Fin 128) :
    (((cfg0.win 3).blk t).view.read (Elt F) A : Vec F S1x128 .f32) (ix2 0 k) = A (ix2 0 k) := by
  obtain ⟨-, -, -, -, -, -, -, -, i0, i1, -, -, -, -, -⟩ := idx_facts t
  rw [View.read_apply]
  show A _ = A _
  refine congrArg A ?_
  funext d
  apply Fin.ext
  match d with
  | ⟨0, _⟩ => show win0_3.index t (0 : Fin 2) * 1 + 1 * 0 = 0; rw [i0]
  | ⟨1, _⟩ => show win0_3.index t (1 : Fin 2) * 128 + 1 * k.val = k.val; rw [i1]; omega

/-- Window 4 stages the whole of ANY [128 × 128] array at every point. -/
theorem blk4_read (A : S128x128.Idx → F .f32) (t : Fin cfg0.N) (a k : Fin 128) :
    (((cfg0.win 4).blk t).view.read (Elt F) A : Vec F S128x128 .f32) (ix2 a k) = A (ix2 a k) := by
  obtain ⟨-, -, -, -, -, -, -, -, -, -, i0, i1, -, -, -⟩ := idx_facts t
  rw [View.read_apply]
  show A _ = A _
  refine congrArg A ?_
  funext d
  apply Fin.ext
  match d with
  | ⟨0, _⟩ => show win0_4.index t (0 : Fin 2) * 128 + 1 * a.val = a.val; rw [i0]; omega
  | ⟨1, _⟩ => show win0_4.index t (1 : Fin 2) * 128 + 1 * k.val = k.val; rw [i1]; omega

/-- Window 5 stages the whole of ANY [1 × 128] row at every point. -/
theorem blk5_read (A : S1x128.Idx → F .f32) (t : Fin cfg0.N) (k : Fin 128) :
    (((cfg0.win 5).blk t).view.read (Elt F) A : Vec F S1x128 .f32) (ix2 0 k) = A (ix2 0 k) := by
  obtain ⟨-, -, -, -, -, -, -, -, -, -, -, -, i0, i1, -⟩ := idx_facts t
  rw [View.read_apply]
  show A _ = A _
  refine congrArg A ?_
  funext d
  apply Fin.ext
  match d with
  | ⟨0, _⟩ => show win0_5.index t (0 : Fin 2) * 1 + 1 * 0 = 0; rw [i0]
  | ⟨1, _⟩ => show win0_5.index t (1 : Fin 2) * 128 + 1 * k.val = k.val; rw [i1]; omega

/-- WHAT A POINT WRITES BACK: if the output block `Y` holds, at row `p`, row `10000·t + p` of an array `G`, then what
    point `t` writes back is block `t` of `G`. -/
theorem flush_read (Y : Vec F S10000x128 .f32) (G : S800000x128.Idx → F .f32) (t : Fin cfg0.N)
    (h : ∀ (p : Fin 10000) (q : Fin 128) (e : Fin 800000), e.val = 10000 * t.val + p.val → Y (ix2 p q) = G (ix2 e q)) :
    (cfg0.win 6).cut (grid0.coords t) Y = ((cfg0.win 6).blk t).view.read (Elt F) G := by
  obtain ⟨-, -, -, -, i60, i61, -, -, -, -, -, -, -, -, ht⟩ := idx_facts t
  funext j
  obtain ⟨p, q, rfl⟩ : ∃ (p : Fin 10000) (q : Fin 128), j = ix2 p q := ⟨j 0, j 1, eq_ix2 j⟩
  show Y (ix2 p q) = G (((cfg0.win 6).blk t).view.emb (ix2 p q))
  have hp : p.val < 10000 := p.isLt
  have he : 10000 * t.val + p.val < 800000 := by omega
  have hemb : ((cfg0.win 6).blk t).view.emb (ix2 p q)
      = (ix2 (⟨10000 * t.val + p.val, he⟩ : Fin 800000) q : S800000x128.Idx) := by
    funext d
    apply Fin.ext
    match d with
    | ⟨0, _⟩ => show win0_6.index t (0 : Fin 2) * 10000 + 1 * p.val = 10000 * t.val + p.val; rw [i60]; omega
    | ⟨1, _⟩ => show win0_6.index t (1 : Fin 2) * 128 + 1 * q.val = q.val; rw [i61]; omega
  rw [hemb]
  exact h p q _ rfl

/-- An index of the result is in point `t`'s block iff each coordinate is in the block's range on its axis. -/
theorem mem_blk (t : Fin cfg0.N) (i : S800000x128.Idx) :
    i ∈ ((cfg0.win 6).blk t).view.set ↔ ∀ a : Fin 2, win0_6.index t a * S10000x128.size a ≤ (i a).val
      ∧ (i a).val < win0_6.index t a * S10000x128.size a + S10000x128.size a := by
  show i ∈ ((View.whole main_v5).slice (win0_6.rect t)).set ↔ _
  rw [View.set_slice_whole, Rect.mem_set_unit]
  exact Iff.rfl

/-- Every block of rows is some point's. -/
theorem idx_onto : ∀ q0 : Fin 80, ∃ t : Fin cfg0.N, win0_6.index t = ![q0.val, 0] :=
  (by decide +kernel : ∀ q0 : Fin 80, ∃ t : Fin grid0.N, win0_6.index t = ![q0.val, 0])

/-- Row `r` of the result is in the block of point `r / 10000`: the 80 blocks cover the array. -/
theorem cover (i : S800000x128.Idx) :
    ∃ t : Fin cfg0.N, (cfg0.win 6).flush t = true ∧ i ∈ ((cfg0.win 6).blk t).view.set := by
  have hi0 : (i 0).val < 800000 := (i 0).isLt
  have hi1 : (i 1).val < 128 := (i 1).isLt
  obtain ⟨t, ht⟩ := idx_onto ⟨(i 0).val / 10000, by omega⟩
  have q0 : win0_6.index t (0 : Fin 2) = (i 0).val / 10000 := congrFun ht 0
  have q1 : win0_6.index t (1 : Fin 2) = 0 := congrFun ht 1
  refine ⟨t, flush0_6 t, ?_⟩
  rw [mem_blk]
  intro a
  match a with
  | ⟨0, _⟩ =>
    show win0_6.index t (0 : Fin 2) * 10000 ≤ (i 0).val ∧ (i 0).val < win0_6.index t (0 : Fin 2) * 10000 + 10000
    omega
  | ⟨1, _⟩ =>
    show win0_6.index t (1 : Fin 2) * 128 ≤ (i 1).val ∧ (i 1).val < win0_6.index t (1 : Fin 2) * 128 + 128
    omega

end Cert.KernelIdeal.Blocks

end
-- ==== Proof.KernelValue.lean ====
/-
  The kernel's result array, as the edge network `Cert.EdgeMlp.out` of the arrays the pallas_call is given.

  Point `t` of the 80-point grid writes back rows `10000·t … 10000·t + 9999` of the result, computed from the same
  rows of the gathered node rows and of the edge attributes and from the weights and biases. So what point `t`
  writes back is block `t` of ONE function of the whole arrays (`flushed_eq`), the 80 blocks cover the result, and
  the result array ends holding that function (`final`, `run`).
-/
import proofs.«427473_j63170378990109_4_alg».proof.Proof.Gen.KernelIdeal.Value
import proofs.«427473_j63170378990109_4_alg».proof.Proof.KernelBody
import proofs.«427473_j63170378990109_4_alg».proof.Proof.KernelBlocks
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Cert.KernelIdeal.Blocks Idealize.ShloMosaic.ValueIdx
open Cert.EdgeMlp (lo hi)

variable (m : (ℓ : Loc nD τ sig) → Buf (Elt Ideal) ℓ) (ρ : Dev nD → PrngReg)

theorem hz : (![0, 0] : Fin 2 → Nat) = fun _ => 0 := funext fun a => by fin_cases a <;> rfl

/-! ## The arrays the call is given, by coordinates -/

/-- The gathered node rows as the call finds them, by edge and column. -/
def gK (c : Dev nD) : Fin 800000 → Fin 64 → EReal := fun e a => (V m c main_v2 : S800000x64.Idx → EReal) (ix2 e a)
/-- The edge attributes, by edge and column. -/
def eaK (c : Dev nD) : Fin 800000 → Fin 64 → EReal := fun e a => (V m c main_arg2 : S800000x64.Idx → EReal) (ix2 e a)
/-- The first weight matrix, by row and column. -/
def w1K (c : Dev nD) : Fin 128 → Fin 128 → EReal := fun a k => (V m c main_arg5 : S128x128.Idx → EReal) (ix2 a k)
/-- The first bias row, by column. -/
def b1K (c : Dev nD) : Fin 128 → EReal := fun k => (V m c main_v3 : S1x128.Idx → EReal) (ix2 0 k)
/-- The second weight matrix, by row and column. -/
def w2K (c : Dev nD) : Fin 128 → Fin 128 → EReal := fun a k => (V m c main_arg7 : S128x128.Idx → EReal) (ix2 a k)
/-- The second bias row, by column. -/
def b2K (c : Dev nD) : Fin 128 → EReal := fun k => (V m c main_v4 : S1x128.Idx → EReal) (ix2 0 k)

/-- The result array: the edge network of those arrays, entry by entry. -/
def outK (c : Dev nD) : S800000x128.Idx → EReal := fun i =>
  Cert.EdgeMlp.out (gK m c) (eaK m c) (w1K m c) (b1K m c) (w2K m c) (b2K m c) (i 0) (i 1)

theorem outK_apply (c : Dev nD) (e : Fin 800000) (q : Fin 128) :
    outK m c (ix2 e q) = Cert.EdgeMlp.out (gK m c) (eaK m c) (w1K m c) (b1K m c) (w2K m c) (b2K m c) e q := rfl

/-! ## Loads through the body's rectangles -/

/-- A load of a whole [10000 × 64] block reads the block. -/
theorem ld_rows (X : Vec Ideal S10000x64 .f32) (p : Fin 10000) (a : Fin 64) : View.ld X r0_0 (ix2 p a) = X (ix2 p a) :=
  congrArg X (funext fun d => Fin.ext (by
    match d with
    | ⟨0, _⟩ => show 0 + 1 * p.val = p.val; omega
    | ⟨1, _⟩ => show 0 + 1 * a.val = a.val; omega))

/-- The first 64 rows of a [128 × 128] matrix, loaded as a [64 × 128] piece. -/
theorem ld_lo (X : Vec Ideal S128x128 .f32) (a : Fin 64) (k : Fin 128) : View.ld X r0_1 (ix2 a k) = X (ix2 (lo a) k) :=
  congrArg X (funext fun d => Fin.ext (by
    match d with
    | ⟨0, _⟩ => show 0 + 1 * a.val = a.val; omega
    | ⟨1, _⟩ => show 0 + 1 * k.val = k.val; omega))

/-- Its last 64 rows, loaded from row 64 on. -/
theorem ld_hi (X : Vec Ideal S128x128 .f32) (a : Fin 64) (k : Fin 128) : View.ld X r0_2 (ix2 a k) = X (ix2 (hi a) k) :=
  congrArg X (funext fun d => Fin.ext (by
    match d with
    | ⟨0, _⟩ => show 64 + 1 * a.val = 64 + a.val; omega
    | ⟨1, _⟩ => show 0 + 1 * k.val = k.val; omega))

/-- A load of a whole [1 × 128] row reads the row. -/
theorem ld_row (X : Vec Ideal S1x128 .f32) (k : Fin 128) : View.ld X r0_3 (ix2 0 k) = X (ix2 0 k) :=
  congrArg X (funext fun d => Fin.ext (by
    match d with
    | ⟨0, _⟩ => rfl
    | ⟨1, _⟩ => show 0 + 1 * k.val = k.val; omega))

/-- A load of a whole [128 × 128] matrix reads the matrix. -/
theorem ld_mat (X : Vec Ideal S128x128 .f32) (a k : Fin 128) : View.ld X r0_4 (ix2 a k) = X (ix2 a k) :=
  congrArg X (funext fun d => Fin.ext (by
    match d with
    | ⟨0, _⟩ => show 0 + 1 * a.val = a.val; omega
    | ⟨1, _⟩ => show 0 + 1 * k.val = k.val; omega))

/-! ## One block -/

/-- What the body leaves in the output block at row `p`, column `q`, when row `p` of the two streamed blocks is edge
    `e`'s and the resident blocks are the weights and biases: the edge network at (e, q). -/
theorem block_apply (X0 X1 : Vec Ideal S10000x64 .f32) (X2 : Vec Ideal S128x128 .f32) (X3 : Vec Ideal S1x128 .f32)
    (X4 : Vec Ideal S128x128 .f32) (X5 : Vec Ideal S1x128 .f32)
    (g ea : Fin 800000 → Fin 64 → EReal) (W1 : Fin 128 → Fin 128 → EReal) (b1 : Fin 128 → EReal)
    (W2 : Fin 128 → Fin 128 → EReal) (b2 : Fin 128 → EReal)
    (e : Fin 800000) (p : Fin 10000) (q : Fin 128)
    (h0 : ∀ a, X0 (ix2 p a) = g e a) (h1 : ∀ a, X1 (ix2 p a) = ea e a)
    (h2 : ∀ a k, X2 (ix2 a k) = W1 a k) (h3 : ∀ k, X3 (ix2 0 k) = b1 k)
    (h4 : ∀ a k, X4 (ix2 a k) = W2 a k) (h5 : ∀ k, X5 (ix2 0 k) = b2 k) :
    out0_6 X0 X1 X2 X3 X4 X5 (ix2 p q) = Cert.EdgeMlp.out g ea W1 b1 W2 b2 e q := by
  unfold out0_6
  rw [View.canon_unit_zero hz]
  exact Cert.KernelIdeal.Body.block_core (View.ld X0 r0_0) (View.ld X1 r0_0) (View.ld X2 r0_1) (View.ld X2 r0_2)
    (View.ld X3 r0_3) (View.ld X4 r0_4) (View.ld X5 r0_3) g ea W1 b1 W2 b2 e p q
    (fun a => (ld_rows X0 p a).trans (h0 a)) (fun a => (ld_rows X1 p a).trans (h1 a))
    (fun a k => (ld_lo X2 a k).trans (h2 _ _)) (fun a k => (ld_hi X2 a k).trans (h2 _ _))
    (fun k => (ld_row X3 k).trans (h3 k)) (fun a k => (ld_mat X4 a k).trans (h4 a k))
    (fun k => (ld_row X5 k).trans (h5 k))

/-! ## What a point writes back, and the final array -/

/-- WHAT POINT `t` WRITES BACK is block `t` of `outK`: row `p` of the point's blocks is edge `10000·t + p`'s. -/
theorem flushed_eq (c : Dev nD) (t : Fin cfg0.N) :
    (dats m 0 c).flushed 6 t = ((cfg0.win 6).blk t).view.read (Elt Ideal) (outK m c) := by
  rw [Value.flushed6]
  refine flush_read (F := Ideal) (out0_6 (iblk m c 0 t) (iblk m c 1 t) (iblk m c 2 t) (iblk m c 3 t) (iblk m c 4 t) (iblk m c 5 t))
    (outK m c) t (fun p q e he => ?_)
  rw [outK_apply]
  exact block_apply (iblk m c 0 t) (iblk m c 1 t) (iblk m c 2 t) (iblk m c 3 t) (iblk m c 4 t) (iblk m c 5 t)
    (gK m c) (eaK m c) (w1K m c) (b1K m c) (w2K m c) (b2K m c) e p q
    (fun a => blk0_read (F := Ideal) (V m c main_v2) t p a e he) (fun a => blk1_read (F := Ideal) (V m c main_arg2) t p a e he)
    (fun a k => blk2_read (F := Ideal) (V m c main_arg5) t a k) (fun k => blk3_read (F := Ideal) (V m c main_v3) t k)
    (fun a k => blk4_read (F := Ideal) (V m c main_arg7) t a k) (fun k => blk5_read (F := Ideal) (V m c main_v4) t k)

/-- THE RESULT ARRAY after the run is `outK`. -/
theorem final (c : Dev nD) : (dats m 0 c).arrAt 6 cfg0.N = outK m c :=
  (dats m 0 c).arrAt_eq_of_cover 6 (outK m c) (fun t _ => flushed_eq m c t) cover

/-- The run, read: the result array at `outK`, the arguments unchanged. -/
theorem run : θ_run defs (onTc (τ := τ) (main (F := Ideal))) ⟨m, fun _ => 0, ρ⟩ fun r => ∀ c : Dev nD,
      r.2.mem ((c : Thread nD τ).loc main_v5) = outK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Hand

end
-- ==== Proof.RefValue.lean ====
/-
  The reference's result, entry by entry, is the edge network `Cert.EdgeMlp.out` of its inputs.

  The reference joins the gathered node rows and the edge attributes into one 128-wide row, multiplies by the first
  weight matrix, adds the bias, cuts off at zero, multiplies by the second weight matrix and adds the second bias.
  Read at an index, each matrix product is a sum over the contracted column, the joined row reads its first 64
  columns from the gathered rows and its last 64 from the edge attributes (`joined_lo`, `joined_hi`), and the sum over
  the joined row splits into its halves (`Cert.EdgeMlp.hiddenJoined_eq`).
-/
import proofs.«427473_j63170378990109_4_alg».proof.Proof.Gen.ReferenceIdeal.Read
import proofs.«427473_j63170378990109_4_alg».proof.Proof.EdgeMlp
import proofs.«427473_j63170378990109_4_alg».proof.Proof.RowIndex
import Idealize.ShloMosaic.Lib.ValueIdx
import Idealize.ShloMosaic.Lib.Pipeline.Value

noncomputable section

namespace Cert.ReferenceIdeal.Hand

open Cert.ReferenceIdeal Cert.ReferenceIdeal.Gen Cert.ReferenceIdeal.Read Idealize.ShloMosaic Idealize.ShloMosaic.ValueIdx
open Cert.EdgeMlp (lo hi)

/-- The reference's start indices are the shifted row indices, laid out as an [800000 × 1] column. -/
theorem starts_eq {F : FTy → Type} [FloatOps F] (x1 : (⟨S2x800000, .i32⟩ : BufTy).Contents (Elt F)) :
    val_main_v7 (F := F) x1
      = broadcastInDim S800000x1 ![0] bcast_S800000_S800000x1_0
          (Cert.RowIndex.shiftedVec bcast_S_S800000
            (shapeCast S800000 (extractStridedSlice S1x800000 ![0, 0] x1 slices_S2x800000_S1x800000_0_0)
              shapeCasts_S1x800000_S800000)) := rfl

variable (x0 : (⟨S50000x64, .f32⟩ : BufTy).Contents (Elt Ideal)) (x1 : (⟨S2x800000, .i32⟩ : BufTy).Contents (Elt Ideal))
  (x2 : (⟨S800000x64, .f32⟩ : BufTy).Contents (Elt Ideal)) (x5 : (⟨S128x128, .f32⟩ : BufTy).Contents (Elt Ideal))
  (x6 : (⟨S128, .f32⟩ : BufTy).Contents (Elt Ideal)) (x7 : (⟨S128x128, .f32⟩ : BufTy).Contents (Elt Ideal))
  (x8 : (⟨S128, .f32⟩ : BufTy).Contents (Elt Ideal))

/-- The gathered node rows, by edge and column. -/
def gathered : Fin 800000 → Fin 64 → EReal := fun e a => val_main_v8 (F := Ideal) x0 x1 (ix2 e a)
/-- The edge attributes, by edge and column. -/
def attrs : Fin 800000 → Fin 64 → EReal := fun e a => x2 (ix2 e a)
/-- A weight matrix, by row and column. -/
def weights (w : (⟨S128x128, .f32⟩ : BufTy).Contents (Elt Ideal)) : Fin 128 → Fin 128 → EReal := fun a k => w (ix2 a k)
/-- A bias vector, by column. -/
def bias (b : (⟨S128, .f32⟩ : BufTy).Contents (Elt Ideal)) : Fin 128 → EReal := fun k => b (ix1 k)

/-- The joined row's first 64 columns are the gathered node row. -/
theorem joined_lo (e : Fin 800000) (a : Fin 64) :
    val_main_v9 (F := Ideal) x0 x1 x2 (ix2 e (lo a)) = gathered x0 x1 e a := by
  unfold val_main_v9 gathered
  exact concatenate_pair_apply_left 1 _ _ concatenates_S800000x64_S800000x64_S800000x128_d1 (ix2 e (lo a)) rfl (ix2 e a)
    (fun b => match b with
      | ⟨0, _⟩ => rfl
      | ⟨1, _⟩ => rfl)

/-- The joined row's last 64 columns are the edge's attributes. -/
theorem joined_hi (e : Fin 800000) (a : Fin 64) :
    val_main_v9 (F := Ideal) x0 x1 x2 (ix2 e (hi a)) = attrs x2 e a := by
  unfold val_main_v9 attrs
  exact concatenate_pair_apply_right 1 _ _ concatenates_S800000x64_S800000x64_S800000x128_d1 (ix2 e (hi a)) rfl rfl (ix2 e a)
    (fun b hb => match b, hb with
      | ⟨0, _⟩, _ => rfl
      | ⟨1, _⟩, hb => absurd rfl hb)
    (by show a.val + 64 = 64 + a.val; omega)

/-- The reference's result at edge `e`, feature `j` is the edge network of the gathered rows, the edge attributes, the
    weights and the biases. -/
theorem result_apply (e : Fin 800000) (j : Fin 128) :
    val_main_v18 (F := Ideal) x0 x1 x2 x5 x6 x7 x8 (ix2 e j)
      = Cert.EdgeMlp.out (gathered x0 x1) (attrs x2) (weights x5) (bias x6) (weights x7) (bias x8) e j := by
  rw [val_main_v18_apply, val_main_v15_apply, val_main_v17_apply, val_main_v16_apply]
  unfold Cert.EdgeMlp.out
  simp only [Ideal.addf_def]
  refine congrArg₂ (· + ·) (Finset.sum_congr rfl fun k _ => congrArg₂ (· * ·) ?_ ?_) ?_
  · have hl : lidx_main_v15 (ix2 e j) k = ix2 e k := funext fun a => Fin.ext (by
      match a with
      | ⟨0, _⟩ => rfl
      | ⟨1, _⟩ => rfl)
    rw [hl, val_main_v14_apply, val_main_v13_apply, val_main_v10_apply, val_main_v12_apply, val_main_v11_apply,
      val_main_call0_v0_apply, val_main_call0_cst_apply]
    rw [← Cert.EdgeMlp.hiddenJoined_eq (gathered x0 x1) (attrs x2) (weights x5) (bias x6)
      (fun e a => val_main_v9 (F := Ideal) x0 x1 x2 (ix2 e a)) (joined_lo x0 x1 x2) (joined_hi x0 x1 x2)]
    unfold Cert.EdgeMlp.hiddenJoined
    simp only [Ideal.addf_def, Ideal.maximumf_def, Ideal.ofBits_def]
    refine congrArg₂ max (congrArg₂ (· + ·) (Finset.sum_congr rfl fun a _ => congrArg₂ (· * ·) (congrArg _ ?_) (congrArg _ ?_)) (congrArg _ ?_)) rfl
    · exact funext fun d => Fin.ext (by
        match d with
        | ⟨0, _⟩ => rfl
        | ⟨1, _⟩ => rfl)
    · exact funext fun d => Fin.ext (by
        match d with
        | ⟨0, _⟩ => rfl
        | ⟨1, _⟩ => rfl)
    · exact funext fun d => Fin.ext (by
        match d with
        | ⟨0, _⟩ => rfl)
  · exact congrArg x7 (funext fun d => Fin.ext (by
      match d with
      | ⟨0, _⟩ => rfl
      | ⟨1, _⟩ => rfl))
  · exact congrArg x8 (funext fun d => Fin.ext (by
      match d with
      | ⟨0, _⟩ => rfl))

end Cert.ReferenceIdeal.Hand

end
-- ==== Proof.lean ====
/-
  Two programs compute, for each of 800000 edges, a two-layer network of the edge's source-node features and the
  edge's own attributes:

      out e j = ∑ₖ max (∑ₐ x[row e] a · W1 a k + ∑ₐ attr e a · W1 (64 + a) k + b1 k) 0 · W2 k j + b2 j,

  where `row e` is the first row of the edge-index table at `e`, a negative index counting from the end of the node
  table. One gathers the node rows first and runs the two matrix products block by block, 10000 edges at a time, with
  the first weight matrix split in two halves; the other joins gathered rows and attributes into one 128-wide row and
  multiplies once. Over the extended reals they agree entry by entry:

  * a matrix product into a zero accumulator and a host matrix product are the same sum over the contracted column;
  * the sum over the joined 128-wide row is the sum over its first 64 columns plus the sum over its last 64
    (commutativity and associativity of addition only: no finiteness is used);
  * the 80 blocks of 10000 rows tile the result;
  * the gather with a fill value for out-of-range indices is the plain gather where every index is in range
    `-50000 ≤ row e < 50000`, which the precondition states: there the shifted index `row e + 50000` (for a negative
    `row e`) or `row e` lies in `[0, 49999]`, so the range test always succeeds.

  The modules: RowIndex (the index arithmetic and the range test), PreDecode (the precondition read back), EdgeMlp
  (the network as one function, and the split of the joined sum), KernelBody (one block, entry by entry),
  KernelRegion (the operations before the call; which rows each grid point is given), KernelValue (blocks to the whole array), RefValue (the joined-row program, entry by
  entry), and the claims below.
-/
import proofs.«427473_j63170378990109_4_alg».proof.Defs
import proofs.«427473_j63170378990109_4_alg».proof.Proof.Gen.Kernel
import proofs.«427473_j63170378990109_4_alg».proof.Proof.Gen.Kernel.Skeleton
import proofs.«427473_j63170378990109_4_alg».proof.Proof.Gen.Kernel.Launch
import proofs.«427473_j63170378990109_4_alg».proof.Proof.Gen.Kernel.Points
import proofs.«427473_j63170378990109_4_alg».proof.Proof.Gen.Kernel.Frame
import proofs.«427473_j63170378990109_4_alg».proof.Proof.Gen.KernelIdeal
import proofs.«427473_j63170378990109_4_alg».proof.Proof.Gen.KernelIdeal.Skeleton
import proofs.«427473_j63170378990109_4_alg».proof.Proof.Gen.KernelIdeal.Launch
import proofs.«427473_j63170378990109_4_alg».proof.Proof.Gen.KernelIdeal.Points
import proofs.«427473_j63170378990109_4_alg».proof.Proof.Gen.KernelIdeal.Frame
import proofs.«427473_j63170378990109_4_alg».proof.Proof.Gen.ReferenceIdeal
import proofs.«427473_j63170378990109_4_alg».proof.Proof.Gen.Pre_finite_inputs
import proofs.«427473_j63170378990109_4_alg».proof.Proof.Gen.KernelIdeal.Value
import proofs.«427473_j63170378990109_4_alg».proof.Proof.Gen.ReferenceIdeal.Run
import proofs.«427473_j63170378990109_4_alg».proof.Proof.Gen.ReferenceIdeal.Read
import proofs.«427473_j63170378990109_4_alg».proof.Proof.PreDecode
import proofs.«427473_j63170378990109_4_alg».proof.Proof.KernelRegion
import proofs.«427473_j63170378990109_4_alg».proof.Proof.KernelValue
import proofs.«427473_j63170378990109_4_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- And the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the edge network of the same arrays in their result. -/
theorem algebraic : Cert.algebraic_KernelIdeal_ReferenceIdeal := by
  intro m ρ m' ρ' hpre hagree
  refine ⟨fun c => Cert.KernelIdeal.Hand.outK m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, -, -, e5, e6, e7, e8⟩ := hagree c
  rw [Cert.ReferenceIdeal.Read.val_main_v18_eq, e0, e1, e2, e5, e6, e7, e8]
  -- every row index is valid, by the precondition
  have hrow : ∀ e, IntOp.cmpi .sge (Cert.KernelIdeal.Region.rowsK m c e) 4294917296#32 = 1#1
      ∧ IntOp.cmpi .slt (Cert.KernelIdeal.Region.rowsK m c e) 50000#32 = 1#1 :=
    fun e => Cert.Pre_finite_inputs.Decode.rows_valid _ _ _ _ _ _ _ _ _ (hpre c) e
  -- the six arrays the two programs read are the same
  have hg : Cert.ReferenceIdeal.Hand.gathered (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = Cert.KernelIdeal.Hand.gK m c := by
    funext e a
    unfold Cert.KernelIdeal.Hand.gK
    rw [Cert.KernelIdeal.Region.region_rows_eq m c hrow]
    unfold Cert.ReferenceIdeal.Hand.gathered Cert.ReferenceIdeal.Read.val_main_v8
    rw [Cert.ReferenceIdeal.Hand.starts_eq]
    rfl
  have hea : Cert.ReferenceIdeal.Hand.attrs (m ((c.tc : Thread Cert.KernelIdeal.nD Cert.KernelIdeal.τ).loc Cert.KernelIdeal.main_arg2))
      = Cert.KernelIdeal.Hand.eaK m c := by
    funext e a
    unfold Cert.KernelIdeal.Hand.eaK
    rw [Cert.KernelIdeal.Gen.V_main_arg2]
    rfl
  have hw1 : Cert.ReferenceIdeal.Hand.weights (m ((c.tc : Thread Cert.KernelIdeal.nD Cert.KernelIdeal.τ).loc Cert.KernelIdeal.main_arg5))
      = Cert.KernelIdeal.Hand.w1K m c := by
    funext a k
    unfold Cert.KernelIdeal.Hand.w1K
    rw [Cert.KernelIdeal.Gen.V_main_arg5]
    rfl
  have hb1 : Cert.ReferenceIdeal.Hand.bias (m ((c.tc : Thread Cert.KernelIdeal.nD Cert.KernelIdeal.τ).loc Cert.KernelIdeal.main_arg6))
      = Cert.KernelIdeal.Hand.b1K m c := by
    funext k
    unfold Cert.KernelIdeal.Hand.b1K
    rw [Cert.KernelIdeal.Region.region_bias1]
    rfl
  have hw2 : Cert.ReferenceIdeal.Hand.weights (m ((c.tc : Thread Cert.KernelIdeal.nD Cert.KernelIdeal.τ).loc Cert.KernelIdeal.main_arg7))
      = Cert.KernelIdeal.Hand.w2K m c := by
    funext a k
    unfold Cert.KernelIdeal.Hand.w2K
    rw [Cert.KernelIdeal.Gen.V_main_arg7]
    rfl
  have hb2 : Cert.ReferenceIdeal.Hand.bias (m ((c.tc : Thread Cert.KernelIdeal.nD Cert.KernelIdeal.τ).loc Cert.KernelIdeal.main_arg8))
      = Cert.KernelIdeal.Hand.b2K m c := by
    funext k
    unfold Cert.KernelIdeal.Hand.b2K
    rw [Cert.KernelIdeal.Region.region_bias2]
    rfl
  funext i
  obtain ⟨e, j, rfl⟩ : ∃ (e : Fin 800000) (j : Fin 128), i = ValueIdx.ix2 e j := ⟨i 0, i 1, ValueIdx.eq_ix2 i⟩
  rw [Cert.ReferenceIdeal.Hand.result_apply, hg, hea, hw1, hb1, hw2, hb2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
